-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S16384 : Shape := ⟨1, ![16384]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x512 .f32) (main_arg1 : FVec F S1000x512 .f32) (main_arg2 : IVec S16384 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x512 : Shape := ⟨2, ![16384, 512]⟩
abbrev S1000x512 : Shape := ⟨2, ![1000, 512]⟩
abbrev S16384 : Shape := ⟨1, ![16384]⟩
abbrev S16384x1 : Shape := ⟨2, ![16384, 1]⟩
abbrev S_ : Shape := ⟨0, ![]⟩
abbrev S1000 : Shape := ⟨1, ![1000]⟩
abbrev S1x1000 : Shape := ⟨2, ![1, 1000]⟩
abbrev S128x128 : Shape := ⟨2, ![128, 128]⟩
abbrev S1024x512 : Shape := ⟨2, ![1024, 512]⟩
abbrev S1024x1 : Shape := ⟨2, ![1024, 1]⟩
abbrev S8x128 : Shape := ⟨2, ![8, 128]⟩
abbrev S1024x1000 : Shape := ⟨2, ![1024, 1000]⟩
abbrev S1024 : Shape := ⟨1, ![1024]⟩
abbrev S1 : Shape := ⟨1, ![1]⟩
abbrev S1x1 : Shape := ⟨2, ![1, 1]⟩

abbrev nBuf : Space → Nat
  | .hbm => 19
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384, .i32⟩
  | .hbm, ⟨3, _⟩ => ⟨S16384x1, .i32⟩
  | .hbm, ⟨4, _⟩ => ⟨S_, .f32⟩
  | .hbm, ⟨5, _⟩ => ⟨S1000x512, .f32⟩
  | .hbm, ⟨6, _⟩ => ⟨S1000x512, .f32⟩
  | .hbm, ⟨7, _⟩ => ⟨S1000x512, .bf16⟩
  | .hbm, ⟨8, _⟩ => ⟨S1000x512, .f32⟩
  | .hbm, ⟨9, _⟩ => ⟨S_, .f32⟩
  | .hbm, ⟨10, _⟩ => ⟨S1000, .f32⟩
  | .hbm, ⟨11, _⟩ => ⟨S1x1000, .f32⟩
  | .hbm, ⟨12, _⟩ => ⟨S128x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1000x512, .bf16⟩
  | .local _ .vmem, ⟨3, _⟩ => ⟨S1x1000, .f32⟩
  | .local _ .vmem, ⟨4, _⟩ => ⟨S1024x1, .i32⟩
  | .local _ .vmem, ⟨5, _⟩ => ⟨S1024x1, .i32⟩
  | .local _ .vmem, ⟨6, _⟩ => ⟨S8x128, .f32⟩
  | .local _ .vmem, ⟨7, _⟩ => ⟨S8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384_S16384x1 : S16384.ShapeCasts S16384x1
  bcast_S_S1000x512 : S_.BroadcastsInDim S1000x512 (![] : Fin 0 → Fin S1000x512.rank)
  bitsLt_bf16_f32 : FTy.bits .bf16 < FTy.bits .f32
  reducesTo_S1000x512_S1000_d1 : S1000x512.ReducesTo [1] S1000
  h_S_ : 0 < S_.numel
  bcast_S1000_S1x1000_1 : S1000.BroadcastsInDim S1x1000 (![1] : Fin 1 → Fin S1x1000.rank)
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S1024x512_S1024 : S1024x512.Reduces [1] S1024
  shapeCasts_S1024_S1024x1 : S1024.ShapeCasts S1024x1
  broadcasts_S1x1000_S1024x1000 : S1x1000.Broadcasts S1024x1000
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1000_d1_w32 : S1024x1000.Iotas .tc 32 [1]
  broadcasts_S1024x1_S1024x1000 : S1024x1.Broadcasts S1024x1000
  reduces_S1024x1000_S1024 : S1024x1000.Reduces [1] S1024
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .bf16 = 32 ∨ (Rect.block (s := S1000x512) S1000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S128x128.size a
  hwx0_4 : ∀ i : grid0.Coords, EltTy.bits .f32 = 32 ∨ (Rect.block (s := S128x128) S8x128.size (cc0_transform_4 i) (hinb0_4 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S512x1000 : Shape := ⟨2, ![512, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S16384, .i32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S512x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S16384x1x1, .i32⟩
  | .hbm, ⟨29, _⟩ => ⟨S1, .i32⟩
  | .hbm, ⟨30, _⟩ => ⟨S_, .i32⟩
  | .hbm, ⟨31, _⟩ => ⟨S16384x1x1, .i32⟩
  | .hbm, ⟨32, _⟩ => ⟨S16384x1x1, .i1⟩
  | .hbm, ⟨33, _⟩ => ⟨S1x1x1, .i32⟩
  | .hbm, ⟨34, _⟩ => ⟨S16384x1x1, .i32⟩
  | .hbm, ⟨35, _⟩ => ⟨S16384x1x1, .i1⟩
  | .hbm, ⟨36, _⟩ => ⟨S16384x1x1, .i1⟩
  | .hbm, ⟨37, _⟩ => ⟨S_, .i1⟩
  | .hbm, ⟨38, _⟩ => ⟨S16384x1, .i1⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_cst_2 : Ref sig .tc := ⟨.hbm, 44, rfl⟩
abbrev main_cst_3 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v17 : Ref sig .tc := ⟨.hbm, 51, rfl⟩
abbrev main_cst_4 : Ref sig .tc := ⟨.hbm, 52, rfl⟩
abbrev main_v18 : Ref sig .tc := ⟨.hbm, 53, rfl⟩
abbrev main_cst_5 : Ref sig .tc := ⟨.hbm, 54, rfl⟩
abbrev main_v19 : Ref sig .tc := ⟨.hbm, 55, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x512_S512x1000_1_0 : S1000x512.Transposes [1, 0] S512x1000
  bcast_S_S16384x1000 : S_.BroadcastsInDim S16384x1000 (![] : Fin 0 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S16384x512_S512x1000_S16384x1000_1_0_0_1_n_n_wf : DotDims.WF S16384x512 S512x1000 S16384x1000 [1] [0] [0] [1] [] []
  gather_S16384x1000_S16384x1x1_S16384x1_n_1_0_0_1_2_11_wf : GatherDims.WF S16384x1000 S16384x1x1 S16384x1 [] [1] [0] [1] [0] 2 ![1, 1]

variable [Facts₀]

def dot_S16384x512_S512x1000_S16384x1000_1_0_0_1_n_n : DotDims S16384x512 S512x1000 S16384x1000 where
  lhsContracting := [1]
  rhsContracting := [0]
  lhsNonContracting := [0]
  rhsNonContracting := [1]
  lhsBatch := []
  rhsBatch := []
  wf := dot_S16384x512_S512x1000_S16384x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Law.lean ====
/-
  The arithmetic that joins the two programs, over abstract finite index sets.

  One sample with feature row `f`, class centers `c` and label `l`:
  the squared distance to the sample's own center is `|f|² + |c_l|² − 2 ⟨f, c_l⟩`. One side forms it that way. The
  other side scales the centers by `−2` first, adds `|c_j|²` to `⟨f, −2 c_j⟩` for EVERY class `j`, keeps only the
  term whose class is the label (all other classes contribute `0`) and adds `|f|²` last. On real entries the two agree
  (`row_law`): the sum over the classes collapses to its one kept term, and `−2` leaves the inner product.

  The mean over the samples: one side sums all 16384 clipped distances and divides by 16384. The other side sums them
  in 16 groups of 1024, writes each group's sum 1024 times (an 8 × 128 block of a 128 × 128 array), sums that array
  and divides by 1024 first. Addition of extended reals is commutative and associative, so the regrouping is free
  (`sum_groups`), and `1024` copies of `S` divided by `1024` is `S` for every extended real `S` (`copies_div`).
-/
import Idealize.ShloMosaic.PureOps.Ideal
import Idealize.ShloMosaic.PureOps.Ideal.Laws

noncomputable section

open scoped BigOperators

namespace CenterDist

open Idealize.ShloMosaic

/-! ## The words the programs spell -/

/-- `2.0` denotes the real `2`. -/
theorem word_two : Ideal.ofBits .f32 0x40000000#32 = ((2 : ℝ) : EReal) := by
  simp [Ideal.ofBits, Ideal.ieee, -EReal.coe_mul]; norm_num
/-- `-2.0` denotes the real `-2`. -/
theorem word_negTwo : Ideal.ofBits .f32 0xC0000000#32 = ((-2 : ℝ) : EReal) := by
  simp [Ideal.ofBits, Ideal.ieee, -EReal.coe_mul]; norm_num
/-- `1024.0` denotes the real `1024`. -/
theorem word_1024 : Ideal.ofBits .f32 0x44800000#32 = ((1024 : ℝ) : EReal) := by
  simp [Ideal.ofBits, Ideal.ieee, -EReal.coe_mul]; norm_num
/-- `16384.0` denotes the real `16384`. -/
theorem word_16384 : Ideal.ofBits .f32 0x46800000#32 = ((16384 : ℝ) : EReal) := by
  simp [Ideal.ofBits, Ideal.ieee, -EReal.coe_mul]; norm_num

/-! ## One sample -/

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The squared distance of a real feature row to its label's center, formed the two ways. -/
theorem row_law {D J : Type} [Fintype D] [Fintype J] [DecidableEq J] (f : D → ℝ) (c : J → D → ℝ) (l : J) :
    (∑ d, (f d : EReal) * (f d : EReal))
        + ∑ j, (if l = j then (∑ d, (f d : EReal) * ((c j d : EReal) * ((-2 : ℝ) : EReal))) + (0 + ∑ d, (c j d : EReal) * (c j d : EReal)) else 0)
      = ((0 + ∑ d, (f d : EReal) * (f d : EReal)) + (0 + ∑ d, (c l d : EReal) * (c l d : EReal)))
          - ((2 : ℝ) : EReal) * ∑ d, (f d : EReal) * (c l d : EReal) := by
  rw [Finset.sum_ite_eq Finset.univ l, if_pos (Finset.mem_univ l)]
  simp only [zero_add, ← EReal.coe_mul, ← coe_sum, ← EReal.coe_add, ← EReal.coe_sub]
  have h : ∑ d, f d * (c l d * -2) = -2 * ∑ d, f d * c l d := by
    rw [Finset.mul_sum]; exact Finset.sum_congr rfl fun d _ => by ring
  rw [h]
  congr 1
  ring

/-! ## The common reading of both programs -/

/-- The squared distance `|f|² + |c|² − 2 ⟨f, c⟩` of a feature row to a center row, each square a sum started at `0`. -/
def rowDist (f c : Fin 512 → EReal) : EReal :=
  ((0 + ∑ d, f d * f d) + (0 + ∑ d, c d * c d)) - ((2 : ℝ) : EReal) * ∑ d, f d * c d

/-- The mean over the 16384 samples of `x` clipped to `[lo, hi]` (the maximum with `lo` first, then the minimum with `hi`). -/
def meanClipped (lo hi : EReal) (x : Fin 16384 → EReal) : EReal :=
  Ideal.div (0 + ∑ n, min hi (max lo (x n))) ((16384 : ℝ) : EReal)

/-! ## The mean over the samples -/

/-- A sum over 16384 samples is the sum over 16 groups of the sums over each group's 1024 samples. -/
theorem sum_groups (s : Fin 16384 → EReal) :
    ∑ t : Fin 16, ∑ r : Fin 1024, s ⟨1024 * t.val + r.val, by have := t.isLt; have := r.isLt; omega⟩ = ∑ n : Fin 16384, s n := by
  rw [← Fintype.sum_prod_type (f := fun p : Fin 16 × Fin 1024 => s ⟨1024 * p.1.val + p.2.val, by have := p.1.isLt; have := p.2.isLt; omega⟩)]
  exact Fintype.sum_equiv (finProdFinEquiv (m := 16) (n := 1024)) _ s fun p => congrArg s (Fin.ext (by
    show 1024 * p.1.val + p.2.val = p.2.val + 1024 * p.1.val; omega))

/-- A 128 × 128 array whose row `a` holds `P (a / 8)` in every column sums to 1024 copies of `∑ P`. -/
theorem sum_copies (P : Fin 16 → EReal) :
    ∑ a : Fin 128, ∑ _b : Fin 128, P ⟨a.val / 8, by have := a.isLt; omega⟩ = 1024 • ∑ t, P t := by
  have hrow : ∀ a : Fin 128, ∑ _b : Fin 128, P ⟨a.val / 8, by have := a.isLt; omega⟩ = 128 • P ⟨a.val / 8, by have := a.isLt; omega⟩ := fun a => by
    rw [Finset.sum_const, Finset.card_univ, Fintype.card_fin]
  rw [Finset.sum_congr rfl fun a _ => hrow a, ← Finset.smul_sum]
  have hcol : ∑ a : Fin 128, P ⟨a.val / 8, by have := a.isLt; omega⟩ = 8 • ∑ t, P t := by
    rw [Finset.smul_sum, ← Fintype.sum_equiv (finProdFinEquiv (m := 16) (n := 8)) (fun p : Fin 16 × Fin 8 => P p.1)
      (fun a : Fin 128 => P ⟨a.val / 8, by have := a.isLt; omega⟩) fun p => congrArg P (Fin.ext (by
        show p.1.val = (p.2.val + 8 * p.1.val) / 8; have := p.2.isLt; omega)),
      Fintype.sum_prod_type]
    exact Finset.sum_congr rfl fun t _ => by
      show ∑ _y : Fin 8, P t = 8 • P t
      rw [Finset.sum_const, Finset.card_univ, Fintype.card_fin]
  rw [hcol, smul_smul]
  norm_num

/-- 1024 copies of an extended real, divided by 1024, is that extended real (the infinities included). -/
theorem copies_div (S : EReal) : Ideal.div (0 + 1024 • S) ((1024 : ℝ) : EReal) = S := by
  rw [zero_add, Ideal.div_coe (by norm_num : (1024 : ℝ) ≠ 0), EReal.nsmul_eq_mul, mul_comm ((1024 : ℕ) : EReal) S, mul_assoc]
  have h : ((1024 : ℕ) : EReal) * ((1 / 1024 : ℝ) : EReal) = 1 := by
    rw [show ((1024 : ℕ) : EReal) = ((1024 : ℝ) : EReal) by norm_cast, ← EReal.coe_mul]; norm_num
  rw [h, mul_one]

end CenterDist

end
-- ==== Proof.RefValue.lean ====
/-
  What the reference computes, read at an index.

  The reference forms the whole 16384 × 1000 matrix of squared distances `|f_n|² + |c_j|² − 2 ⟨f_n, c_j⟩`, takes from
  row `n` the entry at column `labels n`, clips it and averages. The take is jnp's `take_along_axis`: the index word is
  wrapped (a negative word has 1000 added), tested against `0 ≤ · ≤ 999`, used as the start index of a gather that keeps
  the row (a batching axis) and clamps the column, and the result is replaced by a NaN where the test fails. When every
  label is the word of a class `L n < 1000` the wrap leaves the word alone, the test is the bit 1 everywhere, the clamp
  does nothing, and the take is the matrix entry at `(n, L n)`.
-/
import proofs.«427827_j7103875908251_3_alg».proof.Proof.RefRead
import proofs.«427827_j7103875908251_3_alg».proof.Proof.LibIndexWrap
import proofs.«427827_j7103875908251_3_alg».proof.Proof.Law
import Idealize.ShloMosaic.Lib.ValueIdx
import Idealize.ShloMosaic.Lib.StableHlo.Predicate

noncomputable section

open scoped BigOperators

namespace Cert.ReferenceIdeal.RefValue

open Cert.ReferenceIdeal Cert.ReferenceIdeal.Gen Cert.ReferenceIdeal.ReadPatched Idealize.ShloMosaic Idealize.ShloMosaic.ValueIdx
  Idealize.ShloMosaic.IndexWrap Idealize.ShloMosaic.StableHlo.Predicate CenterDist

/-! ## Indices of a vector -/

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl
/-- … so a sum over it is the sum over the coordinate. -/
theorem sum_idx1 {M : Type} [AddCommMonoid M] {n : Nat} (f : (⟨1, ![n]⟩ : Shape).Idx → M) : ∑ i, f i = ∑ a : Fin n, f (ix1 a) := by
  rw [← Equiv.sum_comp (idxEquiv1 (n := n)).symm f]
  rfl

/-! ## The take along the class axis -/

/-- The gather of `take_along_axis` at row `n`: the operand's row `n` (the row axis is a batching axis) at the column
    the start index names, read signed and clamped into `[0, 999]`. -/
theorem gather_row {α : Type} (x : S16384x1000.Idx → α) (idx : IVec S16384x1x1 32) (n : Fin 16384) :
    Host.gather gather_S16384x1000_S16384x1x1_S16384x1_n_1_0_0_1_2_11 x idx (ix2 n (0 : Fin 1))
      = x (ix2 n ⟨min (idx (ix3 n (0 : Fin 1) (0 : Fin 1))).toInt.toNat 999, by omega⟩) := by
  unfold Host.gather
  congr 1
  funext a
  refine Fin.ext ?_
  match a with
  | ⟨0, _⟩ =>
    show gather_S16384x1000_S16384x1x1_S16384x1_n_1_0_0_1_2_11.start (ix2 n (0 : Fin 1)) idx 0
        + gather_S16384x1000_S16384x1x1_S16384x1_n_1_0_0_1_2_11.batchCoord (ix2 n (0 : Fin 1)) 0
        + gather_S16384x1000_S16384x1x1_S16384x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S16384x1000_S16384x1x1_S16384x1_n_1_0_0_1_2_11.start (ix2 n (0 : Fin 1)) idx 1
        + gather_S16384x1000_S16384x1x1_S16384x1_n_1_0_0_1_2_11.batchCoord (ix2 n (0 : Fin 1)) 1
        + gather_S16384x1000_S16384x1x1_S16384x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16384x1000_S16384x1x1_S16384x1_n_1_0_0_1_2_11.startIndexMap from List.mem_singleton.mpr rfl)]
    have hsi : gather_S16384x1000_S16384x1x1_S16384x1_n_1_0_0_1_2_11.siIdx (ix2 n (0 : Fin 1))
        ⟨List.idxOf (1 : Fin 2) gather_S16384x1000_S16384x1x1_S16384x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- A nonnegative index word is its own wrap. -/
theorem wrap_nonneg (n s : BitVec 32) (h : 0 ≤ s.toInt) : wrapWord n s = s := by
  unfold wrapWord Scalar.select
  rw [if_neg]
  intro hs
  have hlt := IntOp.cmpi_slt.1 hs
  have hz : (0#32 : BitVec 32).toInt = 0 := by decide
  rw [hz] at hlt
  omega

/-- The start index of the gather at `(n, ·, ·)` is the wrap of label `n`'s word. -/
theorem startIdx_eq (x2 : (⟨S16384, .i32⟩ : BufTy).Contents (Elt Ideal)) (i : S16384x1x1.Idx) :
    val_main_call0_v5 (F := Ideal) x2 i = wrapWord (BitVec.ofNat 32 1000) (x2 (ix1 (i 0))) := by
  rw [val_main_call0_v5_apply, val_main_call0_v4_apply, val_main_call0_v1_apply, val_main_call0_v3_apply, val_main_v14_apply,
    val_main_call0_v0_apply, val_main_call0_c_apply, val_main_call0_v2_apply, val_main_call0_c_0_apply]
  have e : idx_main_v14 (idx_main_call0_v5 i) = ix1 (i 0) := funext fun a => Fin.ext (by
    match a with
    | ⟨0, _⟩ =>
      have h1 : (i 1).val < 1 := (i 1).isLt
      have h2 : (i 2).val < 1 := (i 2).isLt
      show (((i 0).val * 1 + (i 1).val) * 1 + (i 2).val) / 1 = (i 0).val
      omega)
  rw [e]
  rfl

/-- With every label the word of a class below 1000, the range test is the bit 1 at every row. -/
theorem mask_one (x2 : (⟨S16384, .i32⟩ : BufTy).Contents (Elt Ideal)) (L : Fin 16384 → Fin 1000)
    (hL : ∀ n, x2 (ix1 n) = BitVec.ofNat 32 (L n).val) (j : S16384x1.Idx) :
    val_main_call0_v12 (F := Ideal) x2 j = 1#1 := by
  unfold val_main_call0_v12
  refine reduce_andi_of_all _ _ _ _ (fun _ => rfl) (fun i => ?_) j
  rw [val_main_call0_v11_apply, val_main_call0_v7_apply, val_main_call0_v10_apply, startIdx_eq, val_main_call0_v6_apply,
    val_main_call0_c_2_apply, val_main_call0_v9_apply, val_main_call0_v8_apply, val_main_call0_c_1_apply]
  have hlt : (L (i 0)).val < 1000 := (L (i 0)).isLt
  have hI : (x2 (ix1 (i 0))).toInt = ((L (i 0)).val : Int) := by rw [hL (i 0), toInt_ofNat_small _ (by omega)]
  exact rangeTest_wrap 1000 (by norm_num) (by norm_num) 999#32 (by decide) _ (by rw [hI]; omega) (by rw [hI]; omega)

/-- The taken entry: the distance matrix at `(n, L n)`. -/
theorem taken (x0 : (⟨S16384x512, .f32⟩ : BufTy).Contents (Elt Ideal)) (x1 : (⟨S1000x512, .f32⟩ : BufTy).Contents (Elt Ideal))
    (x2 : (⟨S16384, .i32⟩ : BufTy).Contents (Elt Ideal)) (L : Fin 16384 → Fin 1000)
    (hL : ∀ n, x2 (ix1 n) = BitVec.ofNat 32 (L n).val) (n : Fin 16384) :
    val_main_v15 (F := Ideal) x0 x1 x2 (ix2 n (0 : Fin 1)) = val_main_v13 (F := Ideal) x0 x1 (ix2 n (L n)) := by
  rw [val_main_v15_apply, mask_one x2 L hL, select_one]
  unfold val_main_call0_v13
  rw [gather_row]
  refine congrArg (val_main_v13 (F := Ideal) x0 x1) (funext fun a => Fin.ext ?_)
  match a with
  | ⟨0, _⟩ => rfl
  | ⟨1, _⟩ =>
    show min (val_main_call0_v5 (F := Ideal) x2 (ix3 n (0 : Fin 1) (0 : Fin 1))).toInt.toNat 999 = (L n).val
    have hlt : (L n).val < 1000 := (L n).isLt
    have hI : (x2 (ix1 n)).toInt = ((L n).val : Int) := by rw [hL n, toInt_ofNat_small _ (by omega)]
    rw [startIdx_eq, show x2 (ix1 ((ix3 n (0 : Fin 1) (0 : Fin 1) : S16384x1x1.Idx) 0)) = x2 (ix1 n) from rfl,
      wrap_nonneg _ _ (by rw [hI]; omega), hI]
    omega

/-- The distance matrix at `(n, l)` is the squared distance of feature row `n` to center row `l`. -/
theorem dist_at (x0 : (⟨S16384x512, .f32⟩ : BufTy).Contents (Elt Ideal)) (x1 : (⟨S1000x512, .f32⟩ : BufTy).Contents (Elt Ideal))
    (n : Fin 16384) (l : Fin 1000) :
    val_main_v13 (F := Ideal) x0 x1 (ix2 n l) = rowDist (fun d => x0 (ix2 n d)) (fun d => x1 (ix2 l d)) := by
  have e1 : ∀ k, idx_main_v1 (idx_main_v2 (idx_main_v6 (ix2 n l))) k = ix2 n k := fun k => funext fun a => Fin.ext (by
    match a with | ⟨0, _⟩ => rfl | ⟨1, _⟩ => rfl)
  have e2 : ∀ k, idx_main_v4 (idx_main_v5 (idx_main_v7 (ix2 n l))) k = ix2 l k := fun k => funext fun a => Fin.ext (by
    match a with | ⟨0, _⟩ => rfl | ⟨1, _⟩ => rfl)
  have e3 : ∀ k, lidx_main_v10 (ix2 n l) k = ix2 n k := fun k => funext fun a => Fin.ext (by
    match a with | ⟨0, _⟩ => rfl | ⟨1, _⟩ => rfl)
  have e4 : ∀ k, idx_main_v9 (ridx_main_v10 (ix2 n l) k) = ix2 l k := fun k => funext fun a => Fin.ext (by
    match a with | ⟨0, _⟩ => rfl | ⟨1, _⟩ => rfl)
  rw [val_main_v13_apply, val_main_v8_apply, val_main_v12_apply, val_main_v6_apply, val_main_v2_apply, val_main_v1_apply,
    val_main_v7_apply, val_main_v5_apply, val_main_v4_apply, val_main_v11_apply, val_main_v10_apply]
  simp only [val_main_v0_apply, val_main_v3_apply, val_main_v9_apply, val_main_cst_apply, val_main_cst_0_apply, val_main_cst_1_apply,
    e1, e2, e3, e4, Ideal.subf_def, Ideal.addf_def, Ideal.mulf_def, Ideal.ofBits_def, Ideal.ofBits_zero_f32, word_two]
  rfl

/-! ## The result -/

/-- The reference's result: the mean of the clipped squared distances of each sample to its label's center. -/
theorem ref_value (x0 : (⟨S16384x512, .f32⟩ : BufTy).Contents (Elt Ideal)) (x1 : (⟨S1000x512, .f32⟩ : BufTy).Contents (Elt Ideal))
    (x2 : (⟨S16384, .i32⟩ : BufTy).Contents (Elt Ideal)) (L : Fin 16384 → Fin 1000)
    (hL : ∀ n, x2 (ix1 n) = BitVec.ofNat 32 (L n).val) (i : S_.Idx) :
    val_main_v19 (F := Ideal) x0 x1 x2 i
      = meanClipped (Ideal.ofBits .f32 0x2B8CBCCC#32) (Ideal.ofBits .f32 0x5368D4A5#32)
          (fun n => rowDist (fun d => x0 (ix2 n d)) (fun d => x1 (ix2 (L n) d))) := by
  rw [val_main_v19_apply, val_main_v18_apply, sum_idx1]
  simp only [val_main_v17_apply, val_main_call1_v2_apply, val_main_call1_v4_apply, val_main_call1_v3_apply, val_main_cst_3_apply,
    val_main_call1_v1_apply, val_main_call1_v0_apply, val_main_cst_2_apply, val_main_cst_4_apply, val_main_cst_5_apply,
    Ideal.ofBits_def, Ideal.ofBits_zero_f32, Ideal.hostDivf_def, Ideal.minimumf_def, Ideal.maximumf_def, word_16384]
  unfold meanClipped
  refine congrArg (fun s => Ideal.div (0 + s) ((16384 : ℝ) : EReal)) (Finset.sum_congr rfl fun n _ => ?_)
  have e : idx_main_v16 (ix1 n) = ix2 n (0 : Fin 1) := funext fun a => Fin.ext (by
    match a with
    | ⟨0, _⟩ => show n.val / 1 = n.val; omega
    | ⟨1, _⟩ => rfl)
  rw [val_main_v16_apply, e, taken x0 x1 x2 L hL n, dist_at]

end Cert.ReferenceIdeal.RefValue

end
-- ==== Proof.Tile.lean ====
/-
  What the kernel body computes on one tile of 1024 samples, read at an index.

  From the tile's feature block `x0` [1024, 512], the scaled centers `x1` [1000, 512], the row `x3` [1, 1000] of the
  centers' squared norms and the tile's label column `x12` [1024, 1], the body forms for each sample `r`
  `|x0_r|²` (a lane sum), the score matrix `⟨x0_r, x1_j⟩ + x3_j` (a matrix product into zero plus a row broadcast),
  keeps of row `r` the entries whose column number is the sample's label word (a select against an iota along the
  class axis, `0` elsewhere), sums the row, adds `|x0_r|²`, clips, and sums the 1024 clipped values; the total is written
  to every entry of the 8 × 128 output block. The body's stages are named below (`pay_eq`: the payload IS their composition) and each is
  read at coordinates.
-/
import proofs.«427827_j7103875908251_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## Layout and reductions at coordinates -/

/-- A vector of 1024 entries kept as a column reads, at `(r, 0)`, the vector at `r`. -/
theorem col_apply (y : FVec Ideal S1024 .f32) (r : Fin 1024) :
    shapeCast S1024x1 y shapeCasts_S1024_S1024x1 (ix2 r (0 : Fin 1)) = y (ix1 r) :=
  shapeCast_apply y shapeCasts_S1024_S1024x1 (ix2 r (0 : Fin 1)) (ix1 r) (by
    rewrite [Shape.rowMajor_val_two, Shape.rowMajor_val_one]
    show r.val = r.val * 1 + 0
    omega)

/-- The lane sum of a [1024, 512] vector at row `r`. -/
theorem rowSum512_apply (z : FVec Ideal S1024x512 .f32) (r : Fin 1024) :
    multiReduction (F := Ideal) .add [1] S1024 z 0x00000000#32 reduces_S1024x512_S1024 (.inl rfl) rfl (ix1 r) = ∑ d : Fin 512, z (ix2 r d) :=
  (Ideal.multiReduction_add_single z 0x00000000#32 reduces_S1024x512_S1024 _ _ (ix1 r)).trans
    (Finset.sum_congr rfl fun d _ => congrArg z (funext fun a => Fin.ext (by match a with | ⟨0, _⟩ => rfl | ⟨1, _⟩ => rfl)))

/-- The lane sum of a [1024, 1000] vector at row `r`. -/
theorem rowSum1000_apply (z : FVec Ideal S1024x1000 .f32) (r : Fin 1024) :
    multiReduction (F := Ideal) .add [1] S1024 z 0x00000000#32 reduces_S1024x1000_S1024 (.inl rfl) rfl (ix1 r) = ∑ j : Fin 1000, z (ix2 r j) :=
  (Ideal.multiReduction_add_single z 0x00000000#32 reduces_S1024x1000_S1024 _ _ (ix1 r)).trans
    (Finset.sum_congr rfl fun d _ => congrArg z (funext fun a => Fin.ext (by match a with | ⟨0, _⟩ => rfl | ⟨1, _⟩ => rfl)))

/-- The sum of a column of 1024 entries over its rows. -/
theorem colSum_apply (z : FVec Ideal S1024x1 .f32) :
    multiReduction (F := Ideal) .add [0] S1 z 0x00000000#32 reduces_S1024x1_S1 (.inl rfl) rfl (ix1 (0 : Fin 1)) = ∑ r : Fin 1024, z (ix2 r (0 : Fin 1)) :=
  (Ideal.multiReduction_add_single z 0x00000000#32 reduces_S1024x1_S1 _ _ (ix1 (0 : Fin 1))).trans
    (Finset.sum_congr rfl fun d _ => congrArg z (funext fun a => Fin.ext (by match a with | ⟨0, _⟩ => rfl | ⟨1, _⟩ => rfl)))

/-! ## The contraction's operand indices -/

theorem lhs_dot_0 (i : S1024x1000.Idx) (q : dot_S1024x512_S1000x512_S1024x1000_1_1_0_0_n_n.contr.Idx) :
    (dot_S1024x512_S1000x512_S1024x1000_1_1_0_0_n_n.lhsIdx i q 0).val = (i 0).val := by
  unfold DotDims.lhsIdx
  rw [dif_neg (show ¬(0 : Fin S1024x512.rank) ∈ dot_S1024x512_S1000x512_S1024x1000_1_1_0_0_n_n.lhsBatch by decide), dif_pos (show (0 : Fin S1024x512.rank) ∈ dot_S1024x512_S1000x512_S1024x1000_1_1_0_0_n_n.lhsNonContracting by decide)]
  rfl
theorem lhs_dot_1 (i : S1024x1000.Idx) (q : dot_S1024x512_S1000x512_S1024x1000_1_1_0_0_n_n.contr.Idx) :
    (dot_S1024x512_S1000x512_S1024x1000_1_1_0_0_n_n.lhsIdx i q 1).val = (q ⟨0, by decide⟩).val :=
  dot_S1024x512_S1000x512_S1024x1000_1_1_0_0_n_n.lhsIdx_val_of_single rfl i q
theorem rhs_dot_0 (i : S1024x1000.Idx) (q : dot_S1024x512_S1000x512_S1024x1000_1_1_0_0_n_n.contr.Idx) :
    (dot_S1024x512_S1000x512_S1024x1000_1_1_0_0_n_n.rhsIdx i q 0).val = (i 1).val := by
  unfold DotDims.rhsIdx
  rw [dif_neg (show ¬(0 : Fin S1000x512.rank) ∈ dot_S1024x512_S1000x512_S1024x1000_1_1_0_0_n_n.rhsBatch by decide), dif_pos (show (0 : Fin S1000x512.rank) ∈ dot_S1024x512_S1000x512_S1024x1000_1_1_0_0_n_n.rhsNonContracting by decide)]
  rfl
theorem rhs_dot_1 (i : S1024x1000.Idx) (q : dot_S1024x512_S1000x512_S1024x1000_1_1_0_0_n_n.contr.Idx) :
    (dot_S1024x512_S1000x512_S1024x1000_1_1_0_0_n_n.rhsIdx i q 1).val = (q ⟨0, by decide⟩).val :=
  dot_S1024x512_S1000x512_S1024x1000_1_1_0_0_n_n.rhsIdx_val_of_single rfl i q

/-! ## The body's stages -/

/-- `|x0_r|²` as a column. -/
def sqCol (x0 : FVec Ideal S1024x512 .f32) : FVec Ideal S1024x1 .f32 :=
  shapeCast S1024x1 (multiReduction .add [1] S1024 (mulf x0 x0) 0x00000000#32 reduces_S1024x512_S1024 (.inl rfl) rfl) shapeCasts_S1024_S1024x1

/-- The score matrix `⟨x0_r, x1_j⟩ + x3_j`. -/
def scores (x0 : FVec Ideal S1024x512 .f32) (x1 : FVec Ideal S1000x512 .bf16) (x3 : FVec Ideal S1x1000 .f32) : FVec Ideal S1024x1000 .f32 :=
  addf (matmul dot_S1024x512_S1000x512_S1024x1000_1_1_0_0_n_n none (truncf .bf16 x0 bitsLt_bf16_f32) (shapeCast S1000x512 x1 shapeCasts_S1000x512_S1000x512) (constant S1024x1000 .f32 0x00000000#32))
    (broadcastTo S1024x1000 (shapeCast S1x1000 x3 shapeCasts_S1x1000_S1x1000) broadcasts_S1x1000_S1024x1000)

/-- The mask "column number = the row's label word". -/
def hit (x12 : IVec S1024x1 32) : IVec S1024x1000 1 :=
  cmpi .eq (broadcastTo S1024x1000 (shapeCast S1024x1 x12 shapeCasts_S1024x1_S1024x1) broadcasts_S1024x1_S1024x1000) (iota .tc S1024x1000 32 [1] iota_S1024x1000_d1_w32)

/-- The row sums of the masked scores, as a column. -/
def pickedCol (x0 : FVec Ideal S1024x512 .f32) (x1 : FVec Ideal S1000x512 .bf16) (x3 : FVec Ideal S1x1000 .f32) (x12 : IVec S1024x1 32) : FVec Ideal S1024x1 .f32 :=
  shapeCast S1024x1 (multiReduction .add [1] S1024 (select (hit x12) (scores x0 x1 x3) (broadcast S1024x1000 (Scalar.ofBits (F := Ideal) .f32 0x00000000#32))) 0x00000000#32 reduces_S1024x1000_S1024 (.inl rfl) rfl) shapeCasts_S1024_S1024x1

/-- `|x0_r|²` plus the picked score, clipped. -/
def clippedCol (x0 : FVec Ideal S1024x512 .f32) (x1 : FVec Ideal S1000x512 .bf16) (x3 : FVec Ideal S1x1000 .f32) (x12 : IVec S1024x1 32) : FVec Ideal S1024x1 .f32 :=
  minimumf (broadcast S1024x1 (Scalar.ofBits (F := Ideal) .f32 0x5368D4A5#32)) (maximumf (broadcast S1024x1 (Scalar.ofBits (F := Ideal) .f32 0x2B8CBCCC#32)) (addf (sqCol x0) (pickedCol x0 x1 x3 x12)))

/-- The tile's total, written to every entry of the output block. -/
def tileTotal (x0 : FVec Ideal S1024x512 .f32) (x1 : FVec Ideal S1000x512 .bf16) (x3 : FVec Ideal S1x1000 .f32) (x12 : IVec S1024x1 32) : FVec Ideal S8x128 .f32 :=
  broadcastTo S8x128 (shapeCast S1x1 (shapeCast S1x1 (multiReduction .add [0] S1 (clippedCol x0 x1 x3 x12) 0x00000000#32 reduces_S1024x1_S1 (.inl rfl) rfl) shapeCasts_S1_S1x1) shapeCasts_S1x1_S1x1) broadcasts_S1x1_S8x128

/-- The printed payload is the composition of the stages. -/
theorem pay_eq (x0 : FVec Ideal S1024x512 .f32) (x1 : FVec Ideal S1000x512 .bf16) (x3 : FVec Ideal S1x1000 .f32) (x12 : IVec S1024x1 32) :
    k0_pay1 (F := Ideal) x0 x1 x3 x12 = tileTotal x0 x1 x3 x12 := rfl

/-! ## The stages at coordinates -/

theorem sqCol_apply (x0 : FVec Ideal S1024x512 .f32) (r : Fin 1024) :
    sqCol x0 (ix2 r (0 : Fin 1)) = ∑ d : Fin 512, x0 (ix2 r d) * x0 (ix2 r d) :=
  (col_apply _ r).trans (rowSum512_apply (mulf x0 x0) r)

theorem scores_apply (x0 : FVec Ideal S1024x512 .f32) (x1 : FVec Ideal S1000x512 .bf16) (x3 : FVec Ideal S1x1000 .f32) (r : Fin 1024) (j : Fin 1000) :
    scores x0 x1 x3 (ix2 r j) = (∑ d : Fin 512, x0 (ix2 r d) * x1 (ix2 j d)) + x3 (ix2 (0 : Fin 1) j) := by
  unfold scores
  rw [shapeCast_self, shapeCast_self]
  show FloatOps.matmul dot_S1024x512_S1000x512_S1024x1000_1_1_0_0_n_n none (truncf .bf16 x0 bitsLt_bf16_f32) x1 (constant S1024x1000 .f32 0x00000000#32) (ix2 r j)
      + broadcastTo S1024x1000 x3 broadcasts_S1x1000_S1024x1000 (ix2 r j) = _
  rw [Ideal.matmul_constant_zero_apply, broadcastTo_apply x3 broadcasts_S1x1000_S1024x1000 (ix2 r j) (ix2 (0 : Fin 1) j) (fun c => by
    match c with
    | ⟨0, _⟩ => show (0 : Nat) = if (1 : Nat) = 1 then 0 else r.val; rw [if_pos rfl]
    | ⟨1, _⟩ => show j.val = if (1000 : Nat) = 1 then 0 else j.val; rw [if_neg (by decide)])]
  congr 1
  rw [← Equiv.sum_comp (contrEquiv1 dot_S1024x512_S1000x512_S1024x1000_1_1_0_0_n_n 512 rfl rfl).symm]
  refine Finset.sum_congr rfl fun k _ => ?_
  have hk := contrEquiv1_symm_val dot_S1024x512_S1000x512_S1024x1000_1_1_0_0_n_n 512 rfl rfl k
  have el : dot_S1024x512_S1000x512_S1024x1000_1_1_0_0_n_n.lhsIdx (ix2 r j) ((contrEquiv1 dot_S1024x512_S1000x512_S1024x1000_1_1_0_0_n_n 512 rfl rfl).symm k) = ix2 r k := funext fun a => Fin.ext (by
    match a with
    | ⟨0, _⟩ => exact lhs_dot_0 _ _
    | ⟨1, _⟩ => exact (lhs_dot_1 _ _).trans hk)
  have er : dot_S1024x512_S1000x512_S1024x1000_1_1_0_0_n_n.rhsIdx (ix2 r j) ((contrEquiv1 dot_S1024x512_S1000x512_S1024x1000_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]
  rfl

theorem hit_apply (x12 : IVec S1024x1 32) (r : Fin 1024) (j : Fin 1000) :
    hit x12 (ix2 r j) = IntOp.cmpi .eq (x12 (ix2 r (0 : Fin 1))) (BitVec.ofNat 32 j.val) := by
  unfold hit
  rw [shapeCast_self]
  show IntOp.cmpi .eq (broadcastTo S1024x1000 x12 broadcasts_S1024x1_S1024x1000 (ix2 r j)) (iota .tc S1024x1000 32 [1] iota_S1024x1000_d1_w32 (ix2 r j)) = _
  rw [broadcastTo_apply x12 broadcasts_S1024x1_S1024x1000 (ix2 r j) (ix2 r (0 : Fin 1)) (fun c => by
    match c with
    | ⟨0, _⟩ => show r.val = if (1024 : Nat) = 1 then 0 else r.val; rw [if_neg (by decide)]
    | ⟨1, _⟩ => show (0 : Nat) = if (1 : Nat) = 1 then 0 else j.val; rw [if_pos rfl]), iota_single_apply]

theorem pickedCol_apply (x0 : FVec Ideal S1024x512 .f32) (x1 : FVec Ideal S1000x512 .bf16) (x3 : FVec Ideal S1x1000 .f32) (x12 : IVec S1024x1 32) (r : Fin 1024) :
    pickedCol x0 x1 x3 x12 (ix2 r (0 : Fin 1))
      = ∑ j : Fin 1000, Scalar.select (hit x12 (ix2 r j)) (scores x0 x1 x3 (ix2 r j)) (Ideal.ofBits .f32 0x00000000#32) :=
  (col_apply _ r).trans (rowSum1000_apply _ r)

theorem tileTotal_apply (x0 : FVec Ideal S1024x512 .f32) (x1 : FVec Ideal S1000x512 .bf16) (x3 : FVec Ideal S1x1000 .f32) (x12 : IVec S1024x1 32) (a : Fin 8) (b : Fin 128) :
    tileTotal x0 x1 x3 x12 (ix2 a b) = ∑ r : Fin 1024, clippedCol x0 x1 x3 x12 (ix2 r (0 : Fin 1)) := by
  unfold tileTotal
  rw [shapeCast_self]
  refine (broadcastTo_apply _ broadcasts_S1x1_S8x128 (ix2 a b) (ix2 (0 : Fin 1) (0 : Fin 1)) (fun c => by
    match c with
    | ⟨0, _⟩ => show (0 : Nat) = if (1 : Nat) = 1 then 0 else a.val; rw [if_pos rfl]
    | ⟨1, _⟩ => show (0 : Nat) = if (1 : Nat) = 1 then 0 else b.val; rw [if_pos rfl])).trans ?_
  refine (shapeCast_apply _ shapeCasts_S1_S1x1 (ix2 (0 : Fin 1) (0 : Fin 1)) (ix1 (0 : Fin 1)) (by
    rewrite [Shape.rowMajor_val_two, Shape.rowMajor_val_one]; rfl)).trans ?_
  exact colSum_apply _

/-- THE TILE: every entry of the output block is the sum over the tile's 1024 samples of the clipped
    `|x0_r|² + ∑_j [label_r = j] (⟨x0_r, x1_j⟩ + x3_j)`. -/
theorem tile_apply (x0 : FVec Ideal S1024x512 .f32) (x1 : FVec Ideal S1000x512 .bf16) (x3 : FVec Ideal S1x1000 .f32) (x12 : IVec S1024x1 32) (a : Fin 8) (b : Fin 128) :
    k0_pay1 (F := Ideal) x0 x1 x3 x12 (ix2 a b)
      = ∑ r : Fin 1024, min (Ideal.ofBits .f32 0x5368D4A5#32) (max (Ideal.ofBits .f32 0x2B8CBCCC#32)
          ((∑ d : Fin 512, x0 (ix2 r d) * x0 (ix2 r d))
            + ∑ j : Fin 1000, Scalar.select (IntOp.cmpi .eq (x12 (ix2 r (0 : Fin 1))) (BitVec.ofNat 32 j.val))
                ((∑ d : Fin 512, x0 (ix2 r d) * x1 (ix2 j d)) + x3 (ix2 (0 : Fin 1) j)) (Ideal.ofBits .f32 0x00000000#32))) := by
  rw [pay_eq, tileTotal_apply]
  refine Finset.sum_congr rfl fun r _ => ?_
  show min (Ideal.ofBits .f32 0x5368D4A5#32) (max (Ideal.ofBits .f32 0x2B8CBCCC#32) (sqCol x0 (ix2 r (0 : Fin 1)) + pickedCol x0 x1 x3 x12 (ix2 r (0 : Fin 1)))) = _
  rw [sqCol_apply, pickedCol_apply]
  simp only [hit_apply, scores_apply]

end Cert.KernelIdeal.Tile

end
-- ==== Proof.KernelValue.lean ====
/-
  What the kernel's program computes, from its argument arrays.

  Before the launch the host scales the centers by `−2`, forms the row of the centers' squared norms, and views the labels
  as a column. The launch runs the body once per tile `t` of 1024 samples: tile `t` reads rows `1024 t … 1024 t + 1023`
  of the features and of the label column, and the whole scaled centers and norms row; it writes the tile's total to rows
  `8 t … 8 t + 7` of a 128 × 128 array. So that array is ONE function of the arguments (`outArr`: entry `(a, b)` is the
  total of tile `a / 8`), the 16 blocks cover it, and the host's tail — sum all, divide by 1024, divide by 16384 — is the
  mean over all 16384 samples of each sample's clipped value (`tail_value`). On real features and centers and labels
  that are words of classes below 1000 the sample's value is the squared distance to its label's center (`kRow_eq`).
-/
import proofs.«427827_j7103875908251_3_alg».proof.Proof.Gen.KernelIdeal.Frame
import proofs.«427827_j7103875908251_3_alg».proof.Proof.Tile
import proofs.«427827_j7103875908251_3_alg».proof.Proof.Law
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen Idealize.ShloMosaic Idealize.ShloMosaic.TcCoe Idealize.ShloMosaic.Tactic Idealize.ShloMosaic.ValueIdx
open Idealize.SL Idealize.SL.Sem
open Idealize.ShloMosaic.Pipeline (Dat Cfg Window)
open CenterDist

/-! ## One sample, the kernel's way -/

/-- `|f_n|² + ∑_j [label_n = j] (⟨f_n, −2 c_j⟩ + |c_j|²)` with the label compared as a word against each class number. -/
def kRow (a0 : S16384x512.Idx → EReal) (a1 : S1000x512.Idx → EReal) (a2 : S16384.Idx → BitVec 32) (n : Fin 16384) : EReal :=
  (∑ d : Fin 512, a0 (ix2 n d) * a0 (ix2 n d))
    + ∑ j : Fin 1000, Scalar.select (IntOp.cmpi .eq (a2 (ix1 n)) (BitVec.ofNat 32 j.val))
        ((∑ d : Fin 512, a0 (ix2 n d) * (a1 (ix2 j d) * Ideal.ofBits .f32 0xC0000000#32))
          + (Ideal.ofBits .f32 0x00000000#32 + ∑ d : Fin 512, a1 (ix2 j d) * a1 (ix2 j d)))
        (Ideal.ofBits .f32 0x00000000#32)

/-- The sample's clipped value. -/
def kSample (a0 : S16384x512.Idx → EReal) (a1 : S1000x512.Idx → EReal) (a2 : S16384.Idx → BitVec 32) (n : Fin 16384) : EReal :=
  min (Ideal.ofBits .f32 0x5368D4A5#32) (max (Ideal.ofBits .f32 0x2B8CBCCC#32) (kRow a0 a1 a2 n))

/-- Tile `t`'s total. -/
def tileSum (a0 : S16384x512.Idx → EReal) (a1 : S1000x512.Idx → EReal) (a2 : S16384.Idx → BitVec 32) (t : Fin 16) : EReal :=
  ∑ r : Fin 1024, kSample a0 a1 a2 ⟨1024 * t.val + r.val, by have := t.isLt; have := r.isLt; omega⟩

/-- The launch's output array: rows `8 t … 8 t + 7` hold tile `t`'s total in every column. -/
def outArr (a0 : S16384x512.Idx → EReal) (a1 : S1000x512.Idx → EReal) (a2 : S16384.Idx → BitVec 32) : S128x128.Idx → EReal :=
  fun i => tileSum a0 a1 a2 ⟨(i 0).val / 8, by have := idx2_lt0 i; omega⟩

/-- A select on "the word of `l` equals the word of `j`", both below 1000, is the `if` on `l = j`. -/
theorem select_word_eq {α : Type} (l j : Fin 1000) (A B : α) :
    Scalar.select (IntOp.cmpi .eq (BitVec.ofNat 32 l.val) (BitVec.ofNat 32 j.val)) A B = if l = j then A else B := by
  unfold Scalar.select
  by_cases h : l = j
  · subst h
    have hc : IntOp.cmpi .eq (BitVec.ofNat 32 l.val) (BitVec.ofNat 32 l.val) = 1#1 := StableHlo.Predicate.cmpi_eq_iff.2 rfl
    exact (if_pos hc).trans (if_pos rfl).symm
  · have hc : ¬ IntOp.cmpi .eq (BitVec.ofNat 32 l.val) (BitVec.ofNat 32 j.val) = 1#1 := fun hc => by
      have e := congrArg BitVec.toNat (StableHlo.Predicate.cmpi_eq_iff.1 hc)
      rw [BitVec.toNat_ofNat, BitVec.toNat_ofNat, Nat.mod_eq_of_lt (by have := l.isLt; omega), Nat.mod_eq_of_lt (by have := j.isLt; omega)] at e
      exact h (Fin.ext e)
    exact (if_neg hc).trans (if_neg h).symm

/-- On real entries and labels that are words of classes, the kernel's sample value is the squared distance of the
    sample's feature row to its label's center. -/
theorem kRow_eq (a0 : S16384x512.Idx → EReal) (a1 : S1000x512.Idx → EReal) (a2 : S16384.Idx → BitVec 32)
    (fr : S16384x512.Idx → ℝ) (hfr : ∀ i, a0 i = (fr i : EReal)) (cr : S1000x512.Idx → ℝ) (hcr : ∀ i, a1 i = (cr i : EReal))
    (L : Fin 16384 → Fin 1000) (hL : ∀ n, a2 (ix1 n) = BitVec.ofNat 32 (L n).val) (n : Fin 16384) :
    kRow a0 a1 a2 n = rowDist (fun d => a0 (ix2 n d)) (fun d => a1 (ix2 (L n) d)) := by
  unfold kRow rowDist
  simp only [hfr, hcr, hL n, select_word_eq, word_negTwo, Ideal.ofBits_zero_f32]
  exact row_law (fun d => fr (ix2 n d)) (fun j d => cr (ix2 j d)) (L n)

variable (m : (ℓ : Loc nD τ sig) → Buf (Elt Ideal) ℓ)

/-! ## The arrays the launch finds -/

/-- The three argument arrays on core `c`. -/
abbrev feat (c : Dev nD) : S16384x512.Idx → EReal := m ((c : Thread nD τ).loc main_arg0)
abbrev cent (c : Dev nD) : S1000x512.Idx → EReal := m ((c : Thread nD τ).loc main_arg1)
abbrev labs (c : Dev nD) : S16384.Idx → BitVec 32 := m ((c : Thread nD τ).loc main_arg2)

/-- The second window's array: the centers scaled by the word `-2.0`. -/
theorem V_scaled (c : Dev nD) (j : Fin 1000) (d : Fin 512) :
    V m c main_v3 (ix2 j d) = cent m c (ix2 j d) * Ideal.ofBits .f32 0xC0000000#32 := by
  have e : V m c main_v3 = truncf .bf16 (mulf (cent m c) (broadcastInDim S1000x512 ![] bcast_S_S1000x512 (constant (F := Ideal) S_ .f32 0xC0000000#32))) bitsLt_bf16_f32 := by
    show StableHlo.after hostOps0 (fun b => m (c, b)) (Proc.devRef .tc main_v3) = _
    after_results
  rw [e]
  show cent m c (ix2 j d) * broadcastInDim S1000x512 ![] bcast_S_S1000x512 (constant (F := Ideal) S_ .f32 0xC0000000#32) (ix2 j d) = _
  rw [broadcastInDim_apply _ bcast_S_S1000x512 _ (ix2 j d) ix0 (fun a => a.elim0)]
  rfl

/-- The third window's array: the row of the centers' squared norms, each a sum started at the word `0.0`. -/
theorem V_norms (c : Dev nD) (j : Fin 1000) :
    V m c main_v6 (ix2 (0 : Fin 1) j) = Ideal.ofBits .f32 0x00000000#32 + ∑ d : Fin 512, cent m c (ix2 j d) * cent m c (ix2 j d) := by
  have e : V m c main_v6 = broadcastInDim S1x1000 ![1] bcast_S1000_S1x1000_1
      (Host.reduceAdd (mulf (cent m c) (cent m c)) (constant (F := Ideal) S_ .f32 0x00000000#32) reducesTo_S1000x512_S1000_d1 h_S_) := by
    show StableHlo.after hostOps0 (fun b => m (c, b)) (Proc.devRef .tc main_v6) = _
    after_results
  rw [e, broadcastInDim_apply _ bcast_S1000_S1x1000_1 _ (ix2 (0 : Fin 1) j) (ix1 j) (fun a => by
    match a with
    | ⟨0, _⟩ => show j.val = if (1000 : Nat) = 1 then 0 else j.val; rw [if_neg (by decide)])]
  simp only [Host.reduceAdd, Ideal.hostReduceAdd_def]
  rw [Ideal.hostReduceAdd_single reducesTo_S1000x512_S1000_d1 (by decide)]
  refine congrArg (Ideal.ofBits .f32 0x00000000#32 + ·) (Finset.sum_congr rfl fun k _ => ?_)
  exact congrArg (fun i => cent m c i * cent m c i) (funext fun a => Fin.ext (by match a with | ⟨0, _⟩ => rfl | ⟨1, _⟩ => rfl))

/-- The fourth window's array: the labels as a column. -/
theorem V_labels (c : Dev nD) (n : Fin 16384) : V m c main_v0 (ix2 n (0 : Fin 1)) = labs m c (ix1 n) := by
  have e : V m c main_v0 = shapeCast S16384x1 (labs m c) shapeCasts_S16384_S16384x1 := by
    show StableHlo.after hostOps0 (fun b => m (c, b)) (Proc.devRef .tc main_v0) = _
    after_results
    rfl
  rw [e]
  exact shapeCast_apply _ shapeCasts_S16384_S16384x1 (ix2 n (0 : Fin 1)) (ix1 n) (by
    rewrite [Shape.rowMajor_val_two, Shape.rowMajor_val_one]
    show n.val = n.val * 1 + 0
    omega)

/-! ## The windows' blocks at a point -/

/-- The printed index maps over the grid: the feature, label and output windows move with the point; the other two stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem blk_feat (c : Dev nD) (t : Fin cfg0.N) (ht : t.val < 16) (r : Fin 1024) (d : Fin 512) :
    iblk m c 0 t (ix2 r d) = feat m c (ix2 (⟨1024 * t.val + r.val, by have := r.isLt; omega⟩ : Fin 16384) d) := by
  obtain ⟨e00, e01, -⟩ := idx_facts t
  show V m c main_arg0 (((cfg0.win 0).blk t).view.emb (ix2 r d)) = _
  rw [V_main_arg0]
  refine congrArg (feat m c) (funext fun a => Fin.ext ?_)
  match a with
  | ⟨0, _⟩ => show win0_0.index t (0 : Fin 2) * 1024 + 1 * r.val = 1024 * t.val + r.val; omega
  | ⟨1, _⟩ => show win0_0.index t (1 : Fin 2) * 512 + 1 * d.val = d.val; omega

theorem blk_scaled (c : Dev nD) (t : Fin cfg0.N) (j : Fin 1000) (d : Fin 512) :
    iblk m c 1 t (ix2 j d) = cent m c (ix2 j d) * Ideal.ofBits .f32 0xC0000000#32 := by
  obtain ⟨-, -, e10, e11, -⟩ := idx_facts t
  refine Eq.trans ?_ (V_scaled m c j d)
  show V m c main_v3 (((cfg0.win 1).blk t).view.emb (ix2 j d)) = _
  refine congrArg (V m c main_v3) (funext fun a => Fin.ext ?_)
  match a with
  | ⟨0, _⟩ => show win0_1.index t (0 : Fin 2) * 1000 + 1 * j.val = j.val; omega
  | ⟨1, _⟩ => show win0_1.index t (1 : Fin 2) * 512 + 1 * d.val = d.val; omega

theorem blk_norms (c : Dev nD) (t : Fin cfg0.N) (j : Fin 1000) :
    iblk m c 2 t (ix2 (0 : Fin 1) j) = Ideal.ofBits .f32 0x00000000#32 + ∑ d : Fin 512, cent m c (ix2 j d) * cent m c (ix2 j d) := by
  obtain ⟨-, -, -, -, e20, e21, -⟩ := idx_facts t
  refine Eq.trans ?_ (V_norms m c j)
  show V m c main_v6 (((cfg0.win 2).blk t).view.emb (ix2 (0 : Fin 1) j)) = _
  refine congrArg (V m c main_v6) (funext fun a => Fin.ext ?_)
  match a with
  | ⟨0, _⟩ => show win0_2.index t (0 : Fin 2) * 1 + 1 * 0 = 0; omega
  | ⟨1, _⟩ => show win0_2.index t (1 : Fin 2) * 1000 + 1 * j.val = j.val; omega

theorem blk_labels (c : Dev nD) (t : Fin cfg0.N) (ht : t.val < 16) (r : Fin 1024) :
    iblk m c 3 t (ix2 r (0 : Fin 1)) = labs m c (ix1 (⟨1024 * t.val + r.val, by have := r.isLt; omega⟩ : Fin 16384)) := by
  obtain ⟨-, -, -, -, -, -, e30, e31, -⟩ := idx_facts t
  refine Eq.trans ?_ (V_labels m c _)
  show V m c main_v0 (((cfg0.win 3).blk t).view.emb (ix2 r (0 : Fin 1))) = _
  refine congrArg (V m c main_v0) (funext fun a => Fin.ext ?_)
  match a with
  | ⟨0, _⟩ => show win0_3.index t (0 : Fin 2) * 1024 + 1 * r.val = 1024 * t.val + r.val; omega
  | ⟨1, _⟩ => show win0_3.index t (1 : Fin 2) * 1 + 1 * 0 = 0; omega

/-! ## From the blocks to the array -/

theorem hz : (![0, 0] : Fin 2 → Nat) = fun _ => 0 := funext fun a => by fin_cases a <;> rfl

/-- WHAT POINT `t` WRITES BACK is block `t` of `outArr` of the argument arrays. -/
theorem flushed_eq (c : Dev nD) (t : Fin cfg0.N) :
    (dats m 0 c).flushed 4 t = ((cfg0.win 4).blk t).view.read (Elt Ideal) (outArr (feat m c) (cent m c) (labs m c)) := by
  have hN : cfg0.N = 16 := N_0
  have ht : t.val < 16 := by have := t.isLt; omega
  obtain ⟨-, -, -, -, -, -, -, -, e40, e41⟩ := idx_facts t
  show (cfg0.win 4).cut (grid0.coords t) ((dats m 0 c).after 4 t) = _
  rw [after0_4]
  unfold out0_4
  rw [View.canon_unit_zero hz]
  simp only [View.ld_unit_zero (S := S1024x512) hz, View.ld_unit_zero (S := S1000x512) hz, View.ld_unit_zero (S := S1x1000) hz,
    View.ld_unit_zero (S := S1024x1) hz]
  funext y
  obtain ⟨a, b, rfl⟩ : ∃ (a : Fin 8) (b : Fin 128), y = ix2 a b := ⟨y 0, y 1, eq_ix2 y⟩
  show k0_pay1 (F := Ideal) (iblk m c 0 t) (iblk m c 1 t) (iblk m c 2 t) (iblk m c 3 t) (ix2 a b)
    = outArr (feat m c) (cent m c) (labs m c) (((cfg0.win 4).blk t).view.emb (ix2 a b))
  refine (Tile.tile_apply (iblk m c 0 t) (iblk m c 1 t) (iblk m c 2 t) (iblk m c 3 t) a b).trans ?_
  have hrow : outArr (feat m c) (cent m c) (labs m c) (((cfg0.win 4).blk t).view.emb (ix2 a b))
      = tileSum (feat m c) (cent m c) (labs m c) ⟨t.val, ht⟩ :=
    congrArg (tileSum (feat m c) (cent m c) (labs m c)) (Fin.ext (by
      show (win0_4.index t (0 : Fin 2) * 8 + 1 * a.val) / 8 = t.val
      have := a.isLt
      omega))
  rw [hrow]
  unfold tileSum kSample kRow
  refine Finset.sum_congr rfl fun r _ => ?_
  simp only [blk_feat m c t ht, blk_scaled m c t, blk_norms m c t, blk_labels m c t ht]

/-- An index of the array is in point `t`'s block iff each coordinate is in the block's range on its axis. -/
theorem mem_blk (t : Fin cfg0.N) (i : S128x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v7).slice (win0_4.rect t)).set ↔ _
  rw [View.set_slice_whole, Rect.mem_set_unit]
  exact Iff.rfl

/-- Every index of the array is in the block of the point `(row) / 8`. -/
theorem cover (i : S128x128.Idx) : ∃ t : Fin cfg0.N, (cfg0.win 4).flush t = true ∧ i ∈ ((cfg0.win 4).blk t).view.set := by
  have hi0 : (i 0).val < 128 := idx2_lt0 i
  have hi1 : (i 1).val < 128 := idx2_lt1 i
  have hN : cfg0.N = 16 := N_0
  obtain ⟨t, ht⟩ : ∃ t : Fin cfg0.N, t.val = (i 0).val / 8 := ⟨⟨(i 0).val / 8, by omega⟩, rfl⟩
  obtain ⟨-, -, -, -, -, -, -, -, e40, e41⟩ := idx_facts t
  refine ⟨t, flush0_4 t, ?_⟩
  rw [mem_blk]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- THE ARRAY after the launch. -/
theorem final (c : Dev nD) : (dats m 0 c).arrAt 4 cfg0.N = outArr (feat m c) (cent m c) (labs m c) :=
  (dats m 0 c).arrAt_eq_of_cover 4 _ (fun t _ => flushed_eq m c t) cover

/-! ## The host's tail -/

/-- THE RESULT the frame run's post names: the mean over the 16384 samples of the clipped sample values. -/
theorem tail_value (c : Dev nD) (i : S_.Idx) :
    Pipeline.afterTail₀ cfgs (dats m) 0 (V0 m) [hostOps1] c main_v10 i
      = Ideal.div (∑ n : Fin 16384, kSample (feat m c) (cent m c) (labs m c) n) ((16384 : ℝ) : EReal) := by
  have e : Pipeline.afterTail₀ cfgs (dats m) 0 (V0 m) [hostOps1] c main_v10
      = Host.divf (Host.divf (Host.reduceAdd (outArr (feat m c) (cent m c) (labs m c)) (constant (F := Ideal) S_ .f32 0x00000000#32) reducesTo_S128x128_S_d0_1 h_S_)
          (constant (F := Ideal) S_ .f32 0x44800000#32)) (constant (F := Ideal) S_ .f32 0x46800000#32) := by
    unfold Pipeline.afterTail₀
    show StableHlo.after hostOps1 _ (Proc.devRef .tc main_v10) = _
    after_results
    rw [show Pipeline.withArrays (cfgs 0).spec c (V0 m c) (fun w => (dats m 0 c).arrAt w (cfgs 0).N) (Proc.devRef .tc main_v7)
        = outArr (feat m c) (cent m c) (labs m c) from (Pipeline.withArrays_arr spec0 launch0.win.arr_inj c _ _ 4).trans (final m c)]
  have hsum : Host.reduceAdd (outArr (feat m c) (cent m c) (labs m c)) (constant (F := Ideal) S_ .f32 0x00000000#32) reducesTo_S128x128_S_d0_1 h_S_ i
      = 0 + 1024 • ∑ t, tileSum (feat m c) (cent m c) (labs m c) t := by
    simp only [Host.reduceAdd, Ideal.hostReduceAdd_def]
    rw [Ideal.hostReduceAdd_total reducesTo_S128x128_S_d0_1 (fun b => b.elim0), sum_idx2]
    show Ideal.ofBits .f32 0x00000000#32 + _ = _
    rw [Ideal.ofBits_zero_f32]
    exact congrArg (0 + ·) (sum_copies (tileSum (feat m c) (cent m c) (labs m c)))
  rw [e]
  show Ideal.div (Ideal.div (Host.reduceAdd (outArr (feat m c) (cent m c) (labs m c)) (constant (F := Ideal) S_ .f32 0x00000000#32) reducesTo_S128x128_S_d0_1 h_S_ i)
      (Ideal.ofBits .f32 0x44800000#32)) (Ideal.ofBits .f32 0x46800000#32) = _
  rw [hsum, word_1024, word_16384, copies_div]
  exact congrArg (fun s => Ideal.div s ((16384 : ℝ) : EReal)) (sum_groups (kSample (feat m c) (cent m c) (labs m c)))

end Cert.KernelIdeal.KValue

end
-- ==== Proof.PreRead.lean ====
/-
  What the precondition says, element by element.

  The precondition is three `jnp.all`s joined by `and`: `|features| < +∞`, `|centers| < +∞`, and
  `0 ≤ labels ∧ labels < 1000` (signed). An extended real whose absolute value is below `+∞` is a real number, and a
  32-bit word that is nonnegative and below 1000 as a signed integer is the word of a class number below 1000.
-/
import proofs.«427827_j7103875908251_3_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.PreRead

open Idealize.ShloMosaic Idealize.ShloMosaic.ValueIdx Cert.Pre_finite_inputs

instance : Subsingleton S_.Idx := ⟨fun _ _ => funext fun d => d.elim0⟩

/-- An extended real with `|x| < +∞` (the word `0x7F800000` denotes `+∞`) is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- A word that is nonnegative and below 1000 as a signed integer is the word of a number below 1000. -/
theorem word_of_range (s : BitVec 32) (h0 : 0 ≤ s.toInt) (h1 : s.toInt < 1000) : ∃ l : Fin 1000, s = BitVec.ofNat 32 l.val := by
  have hc := BitVec.toInt_eq_toNat_cond s
  have hlt := s.isLt
  refine ⟨⟨s.toNat, by split at hc <;> omega⟩, by simp⟩

variable [Cert.Pre_finite_inputs.Facts]
open Cert.Pre_finite_inputs.Facts

/-- The precondition, read: both float arrays hold real numbers, and every label is the word of a class below 1000. -/
theorem decode (a0 : FVec Ideal S16384x512 .f32) (a1 : FVec Ideal S1000x512 .f32) (a2 : IVec S16384 32)
    (h : Cert.Pre_finite_inputs.fn (F := Ideal) a0 a1 a2 = fun _ => 1#1) :
    (∃ fr : S16384x512.Idx → ℝ, ∀ i, a0 i = (fr i : EReal)) ∧ (∃ cr : S1000x512.Idx → ℝ, ∀ i, a1 i = (cr i : EReal))
      ∧ ∃ L : Fin 16384 → Fin 1000, ∀ n, a2 (ix1 n) = BitVec.ofNat 32 (L n).val := by
  have h0 := congrFun h ix0
  dsimp only [Cert.Pre_finite_inputs.fn] at h0
  obtain ⟨h8, h14⟩ := IntOp.andi_eq_one.1 h0
  obtain ⟨h3, h7⟩ := IntOp.andi_eq_one.1 h8
  have hf : ∀ i, ∃ r : ℝ, a0 i = (r : EReal) := fun i => by
    have e := Host.reduce_andi_all _ _ _ _ _ h3 i
    have hb : broadcastInDim S16384x512 ![] bcast_S_S16384x512 (constant (F := Ideal) S_ .f32 0x7F800000#32) i
        = Ideal.ofBits .f32 0x7F800000#32 := broadcastInDim_apply _ _ _ i ix0 (fun a => a.elim0)
    change Ideal.cmp .olt (max (a0 i) (-(a0 i))) (broadcastInDim S16384x512 ![] bcast_S_S16384x512 (constant (F := Ideal) S_ .f32 0x7F800000#32) i) = 1#1 at e
    rw [hb] at e
    exact real_of_abs_lt _ e
  have hc : ∀ i, ∃ r : ℝ, a1 i = (r : EReal) := fun i => by
    have e := Host.reduce_andi_all _ _ _ _ _ h7 i
    have hb : broadcastInDim S1000x512 ![] bcast_S_S1000x512 (constant (F := Ideal) S_ .f32 0x7F800000#32) i
        = Ideal.ofBits .f32 0x7F800000#32 := broadcastInDim_apply _ _ _ i ix0 (fun a => a.elim0)
    change Ideal.cmp .olt (max (a1 i) (-(a1 i))) (broadcastInDim S1000x512 ![] bcast_S_S1000x512 (constant (F := Ideal) S_ .f32 0x7F800000#32) i) = 1#1 at e
    rw [hb] at e
    exact real_of_abs_lt _ e
  have hl : ∀ n : Fin 16384, ∃ l : Fin 1000, a2 (ix1 n) = BitVec.ofNat 32 l.val := fun n => by
    have e := Host.reduce_andi_all _ _ _ _ _ h14 (ix1 n)
    obtain ⟨e1, e2⟩ := IntOp.andi_eq_one.1 e
    have hb0 : broadcastInDim S16384 ![] bcast_S_S16384 (constantI S_ 32 0#32) (ix1 n) = 0#32 :=
      broadcastInDim_apply _ _ _ (ix1 n) ix0 (fun a => a.elim0)
    have hb1 : broadcastInDim S16384 ![] bcast_S_S16384 (constantI S_ 32 1000#32) (ix1 n) = 1000#32 :=
      broadcastInDim_apply _ _ _ (ix1 n) ix0 (fun a => a.elim0)
    change IntOp.cmpi .sge (a2 (ix1 n)) (broadcastInDim S16384 ![] bcast_S_S16384 (constantI S_ 32 0#32) (ix1 n)) = 1#1 at e1
    change IntOp.cmpi .slt (a2 (ix1 n)) (broadcastInDim S16384 ![] bcast_S_S16384 (constantI S_ 32 1000#32) (ix1 n)) = 1#1 at e2
    rw [hb0] at e1
    rw [hb1] at e2
    have g1 := IntOp.cmpi_sge.1 e1
    have g2 := IntOp.cmpi_slt.1 e2
    have z0 : (0#32 : BitVec 32).toInt = 0 := by decide
    have z1 : (1000#32 : BitVec 32).toInt = 1000 := by decide
    rw [z0] at g1
    rw [z1] at g2
    exact word_of_range _ g1 g2
  choose fr hfr using hf
  choose cr hcr using hc
  choose L hL using hl
  exact ⟨⟨fr, hfr⟩, ⟨cr, hcr⟩, ⟨L, hL⟩⟩

end Cert.PreRead

end
-- ==== Proof.lean ====
/-
  The center loss: the mean over 16384 samples of the clipped squared distance of each sample's feature row to the
  center of its class, `mean_n clip(|f_n − c_{l_n}|²)`.

  The reference forms every squared distance `|f_n|² + |c_j|² − 2 ⟨f_n, c_j⟩`, takes for each sample the entry at its
  label, clips and averages. The kernel scales the centers by `−2` beforehand and, tile by tile of 1024 samples, adds
  `|c_j|²` to `⟨f_n, −2 c_j⟩`, keeps for each sample the column whose number is its label, adds `|f_n|²`, clips, and sums
  the tile; each tile's total is written 1024 times into a 128 × 128 array, which the host sums, divides by 1024 and
  divides by 16384.

  Under the precondition — real features and centers, labels in `[0, 1000)` — both are the same number: the kept column is
  the label's (a label below 1000 equals exactly one column number), `−2` leaves the inner product and the sums regroup on
  real entries, 1024 copies of the tiles' sum divided by 1024 is that sum, and the tiles' sums add up to the sum over all
  samples. The frames are the generated ones; the idealization rewrote nothing.
-/
import proofs.«427827_j7103875908251_3_alg».proof.Defs
import proofs.«427827_j7103875908251_3_alg».proof.Proof.Gen.Kernel
import proofs.«427827_j7103875908251_3_alg».proof.Proof.Gen.Kernel.Skeleton
import proofs.«427827_j7103875908251_3_alg».proof.Proof.Gen.Kernel.Launch
import proofs.«427827_j7103875908251_3_alg».proof.Proof.Gen.Kernel.Points
import proofs.«427827_j7103875908251_3_alg».proof.Proof.Gen.Kernel.Frame
import proofs.«427827_j7103875908251_3_alg».proof.Proof.Gen.KernelIdeal
import proofs.«427827_j7103875908251_3_alg».proof.Proof.Gen.KernelIdeal.Skeleton
import proofs.«427827_j7103875908251_3_alg».proof.Proof.Gen.KernelIdeal.Launch
import proofs.«427827_j7103875908251_3_alg».proof.Proof.Gen.KernelIdeal.Points
import proofs.«427827_j7103875908251_3_alg».proof.Proof.Gen.KernelIdeal.Frame
import proofs.«427827_j7103875908251_3_alg».proof.Proof.Gen.ReferenceIdeal
import proofs.«427827_j7103875908251_3_alg».proof.Proof.Gen.Pre_finite_inputs
import proofs.«427827_j7103875908251_3_alg».proof.Proof.RefRun
import proofs.«427827_j7103875908251_3_alg».proof.Proof.RefValue
import proofs.«427827_j7103875908251_3_alg».proof.Proof.KernelValue
import proofs.«427827_j7103875908251_3_alg».proof.Proof.PreRead
import Idealize.ShloMosaic.Adequacy
import Idealize.ShloMosaic.Init

noncomputable section

namespace Cert.Proof

open Idealize.ShloMosaic Idealize.ShloMosaic.ValueIdx Idealize.SL.Sem CenterDist

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunPatched.run (F := Ideal) m ρ)

/-- Both programs end at the mean of the clipped squared distances to the labels' centers. -/
theorem algebraic : Cert.algebraic_KernelIdeal_ReferenceIdeal := by
  intro m ρ m' ρ' hpre hagree
  have hdec := fun c => Cert.PreRead.decode _ _ _ (hpre c)
  have h1 := fun c => (hdec c).1
  have h2 := fun c => (hdec c).2.1
  have h3 := fun c => (hdec c).2.2
  choose fr hfr using h1
  choose cr hcr using h2
  choose L hL using h3
  refine ⟨fun c => fun _ => meanClipped (Ideal.ofBits .f32 0x2B8CBCCC#32) (Ideal.ofBits .f32 0x5368D4A5#32)
      (fun n => rowDist (fun d => Cert.KernelIdeal.KValue.feat m c (ix2 n d)) (fun d => Cert.KernelIdeal.KValue.cent m c (ix2 (L c n) d))), ?_, ?_⟩
  · refine (θ_run Cert.KernelIdeal.defs _ _).mono (fun r h c => ⟨?_, ?_, ?_, ?_⟩) (Cert.KernelIdeal.Gen.run_main m ρ)
    · rw [(h c).2 Cert.KernelIdeal.main_v10 (Pipeline.mem_restRefs_of Cert.KernelIdeal.main_v10 (by decide) (by decide))]
      funext i
      rw [Cert.KernelIdeal.KValue.tail_value m c i]
      show _ = Ideal.div (0 + ∑ n : Fin 16384, min (Ideal.ofBits .f32 0x5368D4A5#32) (max (Ideal.ofBits .f32 0x2B8CBCCC#32)
        (rowDist (fun d => Cert.KernelIdeal.KValue.feat m c (ix2 n d)) (fun d => Cert.KernelIdeal.KValue.cent m c (ix2 (L c n) d))))) ((16384 : ℝ) : EReal)
      rw [zero_add]
      refine congrArg (fun s => Ideal.div s ((16384 : ℝ) : EReal)) (Finset.sum_congr rfl fun n _ => ?_)
      unfold Cert.KernelIdeal.KValue.kSample
      rw [Cert.KernelIdeal.KValue.kRow_eq _ _ _ (fr c) (hfr c) (cr c) (hcr c) (L c) (hL c) n]
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Gen.dats m) c)
  · refine (θ_run Cert.ReferenceIdeal.defs _ _).mono (fun r h c => ⟨?_, (h c).2⟩) (Cert.ReferenceIdeal.RunPatched.run (F := Ideal) m' ρ')
    rw [(h c).1, Cert.ReferenceIdeal.ReadPatched.val_main_v19_eq, (hagree c).1, (hagree c).2.1, (hagree c).2.2]
    funext i
    exact Cert.ReferenceIdeal.RefValue.ref_value _ _ _ (L c) (hL c) i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
